-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S64x2048 : Shape := ⟨2, ![64, 2048]⟩
abbrev S64 : Shape := ⟨1, ![64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x2048 .f32) (main_arg1 : FVec F S64x2048 .f32) (main_arg2 : FVec F S64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x2048 : Shape := ⟨2, ![8192, 2048]⟩
abbrev S64x2048 : Shape := ⟨2, ![64, 2048]⟩
abbrev S64 : Shape := ⟨1, ![64]⟩
abbrev S64x8192 : Shape := ⟨2, ![64, 8192]⟩
abbrev S1024x2048 : Shape := ⟨2, ![1024, 2048]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S8192x64 : Shape := ⟨2, ![8192, 64]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S64x8192, .f32⟩
  | .hbm, ⟨4, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64, .f32⟩
  | .local _ .vmem, ⟨4, _⟩ => ⟨S64x1024, .f32⟩
  | .local _ .vmem, ⟨5, _⟩ => ⟨S64x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  inb_S64_S64_0 : ∀ a, (![0] : Fin 1 → Nat) a + S64.size a ≤ S64.size a
  h_S64 : 0 < S64.numel
  shapeCasts_S64_S64x1 : S64.ShapeCasts S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x8192_S8192x64_1_0 : S64x8192.Transposes [1, 0] S8192x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x8192.size a
  hwx0_3 : ∀ i : grid0.Coords, EltTy.bits .f32 = 32 ∨ (Rect.block (s := S64x8192) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S64x2048 : Shape := ⟨2, ![64, 2048]⟩
abbrev S64 : Shape := ⟨1, ![64]⟩
abbrev S2048x64 : Shape := ⟨2, ![2048, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x2048_S2048x64_S8192x64_1_0_0_1_n_n_wf : DotDims.WF S8192x2048 S2048x64 S8192x64 [1] [0] [0] [1] [] []

variable [Facts₀]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.Softmax.lean ====
/-
  The gate of a mixture-of-experts layer, token by token, on the extended reals.

  For one token with feature row `xr` (2048 entries), the weight matrix `W` (64 experts by 2048 features) and the
  bias `b` (64 entries):
    * `logit p  = (sum over k of W[p, k] * xr[k]) + b[p]`, the score of expert `p`;
    * `rowMax   = the maximum of the 64 scores, taken from minus infinity`;
    * `expo p   = exp (logit p - rowMax)`;
    * `gate p   = expo p / (sum over q of expo q)`, the softmax weight of expert `p`.
  Both programs compute this function of a token's row; they differ in the layout of the result (experts by tokens,
  then transposed, against tokens by experts), in the order of the two factors of each product, and in that one of
  them takes the maximum with minus infinity once more.
-/
import Idealize.ShloMosaic.PureOps.Ideal
import Idealize.ShloMosaic.PureOps.Ideal.Laws
import Idealize.ShloMosaic.Lib.ValueIdx
import Mathlib.Data.Finset.Fold
import Idealize.ShloMosaic.Lib.ValueLayout

noncomputable section

open scoped BigOperators

namespace Cert.GateSoftmax

open Idealize.ShloMosaic Idealize.ShloMosaic.ValueIdx

/-- The weight matrix's index set: 64 experts by 2048 features. -/
abbrev SW : Shape := ⟨2, ![64, 2048]⟩
/-- The bias vector's index set: 64 experts. -/
abbrev Sb : Shape := ⟨1, ![64]⟩

/-- The pattern of minus infinity the two maxima start from. -/
abbrev negInf : EReal := Ideal.ofBits .f32 0xFF800000#32

/-- Expert `p`'s score for a token with feature row `xr`. -/
def logit (xr : Fin 2048 → EReal) (W : SW.Idx → EReal) (b : Sb.Idx → EReal) (p : Fin 64) : EReal :=
  (∑ k : Fin 2048, W (ix2 p k) * xr k) + b (ix1 p)

/-- The largest of a token's 64 scores (folded from minus infinity). -/
def rowMax (xr : Fin 2048 → EReal) (W : SW.Idx → EReal) (b : Sb.Idx → EReal) : EReal :=
  (Finset.univ : Finset (Fin 64)).fold max negInf (logit xr W b)

/-- The exponential of a score's distance below the largest score. -/
def expo (xr : Fin 2048 → EReal) (W : SW.Idx → EReal) (b : Sb.Idx → EReal) (p : Fin 64) : EReal :=
  Ideal.exp (logit xr W b p - rowMax xr W b)

/-- The softmax weight of expert `p` for the token. -/
def gate (xr : Fin 2048 → EReal) (W : SW.Idx → EReal) (b : Sb.Idx → EReal) (p : Fin 64) : EReal :=
  Ideal.div (expo xr W b p) (∑ q : Fin 64, expo xr W b q)

/-- A maximum folded from `c` is at least `c`, so taking the maximum with `c` again changes nothing. -/
theorem max_fold_self {n : Nat} (c : EReal) (f : Fin n → EReal) :
    max c ((Finset.univ : Finset (Fin n)).fold max c f) = (Finset.univ : Finset (Fin n)).fold max c f :=
  max_eq_right ((Finset.le_fold_max c).mpr (Or.inl le_rfl))

/-- The fold of the ideal instance's `maximumf` is the fold of `max`. -/
theorem fold_maximumf {n : Nat} (c : EReal) (f : Fin n → EReal) :
    (Finset.univ : Finset (Fin n)).fold (FloatOps.maximumf (F := Ideal) (φ := .f32)) c f
      = (Finset.univ : Finset (Fin n)).fold max c f := rfl

/-! ## The whole result, in the two layouts -/

/-- The token matrix's index set: 8192 tokens by 2048 features. -/
abbrev SX : Shape := ⟨2, ![8192, 2048]⟩

/-- The result laid out tokens by experts: entry (j, p) is expert p's weight for token j. -/
def gateN (X : SX.Idx → EReal) (W : SW.Idx → EReal) (b : Sb.Idx → EReal) : (⟨2, ![8192, 64]⟩ : Shape).Idx → EReal :=
  fun i => gate (fun k => X (ix2 (i 0) k)) W b (i 1)

/-- The result laid out experts by tokens: entry (p, j) is expert p's weight for token j. -/
def gateT (X : SX.Idx → EReal) (W : SW.Idx → EReal) (b : Sb.Idx → EReal) : (⟨2, ![64, 8192]⟩ : Shape).Idx → EReal :=
  fun i => gate (fun k => X (ix2 (i 1) k)) W b (i 0)

/-- The experts-by-tokens layout at an index whose coordinates are known as numbers. -/
theorem gateT_of (X : SX.Idx → EReal) (W : SW.Idx → EReal) (b : Sb.Idx → EReal) (i : (⟨2, ![64, 8192]⟩ : Shape).Idx)
    (p : Fin 64) (j : Fin 8192) (h0 : (i 0).val = p.val) (h1 : (i 1).val = j.val) :
    gateT X W b i = gate (fun k => X (ix2 j k)) W b p := by
  have e0 : i 0 = p := Fin.ext h0
  have e1 : i 1 = j := Fin.ext h1
  unfold gateT
  rw [e0, e1]

/-- Transposing the experts-by-tokens layout gives the tokens-by-experts layout. -/
theorem transpose_gateT (X : SX.Idx → EReal) (W : SW.Idx → EReal) (b : Sb.Idx → EReal)
    (h : (⟨2, ![64, 8192]⟩ : Shape).Transposes [1, 0] ⟨2, ![8192, 64]⟩) :
    transpose ⟨2, ![8192, 64]⟩ [1, 0] (gateT X W b) h = gateN X W b := by
  funext i
  obtain ⟨j, p, rfl⟩ : ∃ (j : Fin 8192) (p : Fin 64), i = ix2 j p := ⟨i 0, i 1, eq_ix2 i⟩
  rw [transpose_ix2_apply]
  rfl

end Cert.GateSoftmax

end
-- ==== Proof.RefGate.lean ====
/-
  The reference program computes the gate token by token.

  Its result at (token j, expert p) is read one operation at a time: the product of the token matrix with the
  transposed weights plus the bias broadcast over the tokens is expert p's score for row j of the token matrix; the
  maximum over the experts, taken from minus infinity and once more against minus infinity, is the row's largest
  score; the exponentials, their sum over the experts (from zero) and the quotient are then the softmax weight.
  The only algebra used is the commutativity of the product of two extended reals and that a maximum folded from
  minus infinity is unchanged by a further maximum with minus infinity.
-/
import proofs.«172098_g30124900614622_retrytranche2_1091_25_alg».proof.Proof.Gen.ReferenceIdeal.Read
import proofs.«172098_g30124900614622_retrytranche2_1091_25_alg».proof.Proof.Softmax
import Idealize.ShloMosaic.PureOps.Reduce

noncomputable section

open scoped BigOperators

namespace Cert.ReferenceIdeal.RefValue

open Cert.ReferenceIdeal Cert.ReferenceIdeal.Gen Cert.ReferenceIdeal.Read Cert.GateSoftmax
open Idealize.ShloMosaic Idealize.ShloMosaic.ValueIdx

variable (x : (⟨S8192x2048, .f32⟩ : BufTy).Contents (Elt Ideal)) (W : (⟨S64x2048, .f32⟩ : BufTy).Contents (Elt Ideal))
  (b : (⟨S64, .f32⟩ : BufTy).Contents (Elt Ideal))

/-- The biased product at (j, p) is expert p's score for row j. -/
theorem logit_eq (j : Fin 8192) (p : Fin 64) :
    val_main_v4 (F := Ideal) x W b (ix2 j p) = logit (fun k => x (ix2 j k)) W b p := by
  rw [val_main_v4_apply, val_main_v1_apply, val_main_v3_apply, val_main_v2_apply]
  have hl : ∀ k : Fin 2048, lidx_main_v1 (ix2 j p) k = ix2 j k := fun k =>
    funext fun a => by match a with | ⟨0, _⟩ => rfl | ⟨1, _⟩ => rfl
  have hr : ∀ k : Fin 2048, idx_main_v0 (ridx_main_v1 (ix2 j p) k) = ix2 p k := fun k =>
    funext fun a => by match a with | ⟨0, _⟩ => rfl | ⟨1, _⟩ => rfl
  have hb : idx_main_v2 (idx_main_v3 (ix2 j p)) = ix1 p :=
    funext fun a => by match a with | ⟨0, _⟩ => rfl
  simp only [val_main_v0_apply, hl, hr, hb]
  unfold logit
  show (∑ k : Fin 2048, x (ix2 j k) * W (ix2 p k)) + b (ix1 p) = _
  exact congrArg (· + b (ix1 p)) (Finset.sum_congr rfl fun k _ => mul_comm _ _)

/-- The host's maximum over the experts from minus infinity, at token j, is the fold of `max` over the 64 entries of row j. -/
theorem hostMax_row (y : (⟨S8192x64, .f32⟩ : BufTy).Contents (Elt Ideal)) (j : Fin 8192) :
    Host.reduce (FloatOps.maximumf (F := Ideal) (φ := .f32)) y (constant S_ .f32 0xFF800000#32) reducesTo_S8192x64_S8192_d1 h_S_ (ix1 j)
      = (Finset.univ : Finset (Fin 64)).fold max negInf (fun p => y (ix2 j p)) := by
  have h : S8192x64.Reduces [1] S8192 := by decide
  rw [Host.reduce_eq_fold_single _ y _ reducesTo_S8192x64_S8192_d1 h h_S_ (ix1 j)]
  have hf : (y ∘ h.lift (ix1 j)) = fun p : Fin 64 => y (ix2 j p) :=
    funext fun p => congrArg y (funext fun a => Fin.ext (by match a with | ⟨0, _⟩ => rfl | ⟨1, _⟩ => rfl))
  rw [hf]
  rfl

/-- The reference's row maximum is the largest score of the row. -/
theorem max_eq (j : Fin 8192) :
    val_main_v7 (F := Ideal) x W b (ix1 j) = rowMax (fun k => x (ix2 j k)) W b := by
  rw [val_main_v7_apply, val_main_v6_apply, val_main_cst_0_apply]
  unfold val_main_v5 val_main_cst
  rw [hostMax_row]
  show max negInf _ = _
  rw [max_fold_self]
  unfold rowMax
  exact congrArg (fun f : Fin 64 → EReal => (Finset.univ : Finset (Fin 64)).fold max negInf f) (funext fun p => logit_eq x W b j p)

/-- The exponential stage at (j, p). -/
theorem expo_eq (j : Fin 8192) (p : Fin 64) :
    val_main_v11 (F := Ideal) x W b (ix2 j p) = expo (fun k => x (ix2 j k)) W b p := by
  rw [val_main_v11_apply, val_main_v10_apply, val_main_v9_apply, val_main_v8_apply]
  have h8 : idx_main_v8 (idx_main_v9 (ix2 j p)) = ix1 j :=
    funext fun a => by match a with | ⟨0, _⟩ => rfl
  rw [h8, max_eq, logit_eq]
  rfl

/-- The reference's result at (j, p) is the softmax weight of expert p for row j. -/
theorem gate_eq (j : Fin 8192) (p : Fin 64) :
    val_main_v15 (F := Ideal) x W b (ix2 j p) = gate (fun k => x (ix2 j k)) W b p := by
  rw [val_main_v15_apply, val_main_v14_apply, val_main_v13_apply, val_main_v12_apply, val_main_cst_1_apply]
  have h13 : idx_main_v13 (idx_main_v14 (ix2 j p)) = ix1 j :=
    funext fun a => by match a with | ⟨0, _⟩ => rfl
  have h12 : ∀ k : Fin 64, idx_main_v12 (ix1 j) k = ix2 j k := fun k =>
    funext fun a => by match a with | ⟨0, _⟩ => rfl | ⟨1, _⟩ => rfl
  rw [h13]
  simp only [h12, expo_eq]
  show Ideal.div _ (Ideal.ofBits .f32 0x00000000#32 + _) = _
  rw [Ideal.ofBits_zero_f32, zero_add]
  rfl

end Cert.ReferenceIdeal.RefValue

end
-- ==== Proof.LibColumn.lean ====
/-
  Column vectors read at an index: a vector of length `a` cast to an `a`-by-1 column, and such a column broadcast
  along the rows of an `a`-by-`b` matrix (the "keepdims" forms a kernel uses to add a per-row bias or divide by a
  per-row total when the rows are the sublanes).
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`:
    both indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KerGate.lean ====
/-
  One grid point of the kernel computes the gate for its 1024 tokens.

  The body holds the whole weight matrix `W` (64 by 2048), a block `x0` of 1024 token rows (1024 by 2048) and the bias
  `b`, and stores a 64-by-1024 block: entry (p, q) is the softmax weight of expert p for the block's token q. Read
  index by index: the matrix product into a zero accumulator contracts the feature axis of both operands, so its
  entry (p, q) is the sum over k of W[p, k] * x0[q, k]; the bias is a column broadcast along the tokens; the maximum
  and the sum run down the 64 experts of a column; each is then broadcast back over the column as a one-row matrix.
-/
import proofs.«172098_g30124900614622_retrytranche2_1091_25_alg».proof.Proof.Gen.KernelIdeal.Skeleton
import proofs.«172098_g30124900614622_retrytranche2_1091_25_alg».proof.Proof.Softmax
import proofs.«172098_g30124900614622_retrytranche2_1091_25_alg».proof.Proof.LibColumn
import Idealize.ShloMosaic.Lib.ValueLayout
import Idealize.ShloMosaic.PureOps.Ideal.Laws

noncomputable section

open scoped BigOperators

namespace Cert.KernelIdeal.KerValue

open Cert.KernelIdeal Cert.KernelIdeal.Gen Cert.GateSoftmax
open Idealize.ShloMosaic Idealize.ShloMosaic.ValueIdx

/-! ## The matrix product at an entry -/

theorem lhs_dot_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_dot_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_dot_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_dot_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

variable (W : FVec Ideal S64x2048 .f32) (x0 : FVec Ideal S1024x2048 .f32) (b : FVec Ideal S64 .f32)

/-- Entry (p, q) of the product into the zero accumulator: row p of `W` against row q of the token block. -/
theorem matmul_at (p : Fin 64) (q : Fin 1024) :
    matmul (F := Ideal) (φ₁ := .f32) (φ₂ := .f32) dot_S64x2048_S1024x2048_S64x1024_1_1_0_0_n_n none W x0 (constant S64x1024 .f32 0x00000000#32) (ix2 p q)
      = ∑ k : Fin 2048, W (ix2 p k) * x0 (ix2 q k) := by
  simp only [matmul]
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 p q) ((contrEquiv1 dot_S64x2048_S1024x2048_S64x1024_1_1_0_0_n_n 2048 rfl rfl).symm k) = ix2 p k := funext fun a => Fin.ext (by
    match a with
    | ⟨0, _⟩ => exact lhs_dot_0 _ _
    | ⟨1, _⟩ => exact (lhs_dot_1 _ _).trans hk)
  have er : dot_S64x2048_S1024x2048_S64x1024_1_1_0_0_n_n.rhsIdx (ix2 p q) ((contrEquiv1 dot_S64x2048_S1024x2048_S64x1024_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

/-! ## The two reductions down a column -/

/-- The maximum down the 64 rows of column q, from minus infinity. -/
theorem colMax_at (v : FVec Ideal S64x1024 .f32) (hφ : FKind.Formats .f32)
    (hacc : (0xFF800000#32 : BitVec 32) = FKind.maximumf.neutral .f32 hφ) (q : Fin 1024) :
    multiReduction .maximumf [0] S1024 v 0xFF800000#32 reduces_S64x1024_S1024 hφ hacc (ix1 q)
      = (Finset.univ : Finset (Fin 64)).fold max negInf (fun p => v (ix2 p q)) := by
  refine (Ideal.multiReduction_maximumf_single v 0xFF800000#32 reduces_S64x1024_S1024 hφ hacc (ix1 q)).trans ?_
  have hf : (v ∘ reduces_S64x1024_S1024.lift (ix1 q)) = fun p : Fin 64 => v (ix2 p q) :=
    funext fun p => congrArg v (funext fun a => Fin.ext (by match a with | ⟨0, _⟩ => rfl | ⟨1, _⟩ => rfl))
  rw [hf]
  rfl

/-- The sum down the 64 rows of column q. -/
theorem colSum_at (v : FVec Ideal S64x1024 .f32) (hφ : FKind.Formats .f32)
    (hacc : (0x00000000#32 : BitVec 32) = FKind.add.neutral .f32 hφ) (q : Fin 1024) :
    multiReduction .add [0] S1024 v 0x00000000#32 reduces_S64x1024_S1024 hφ hacc (ix1 q)
      = ∑ p : Fin 64, v (ix2 p q) := by
  refine (Ideal.multiReduction_add_single v 0x00000000#32 reduces_S64x1024_S1024 hφ hacc (ix1 q)).trans ?_
  exact Finset.sum_congr rfl fun p _ =>
    congrArg v (funext fun a => Fin.ext (by match a with | ⟨0, _⟩ => rfl | ⟨1, _⟩ => rfl))

/-- A length-1024 vector cast to one row and broadcast down the 64 rows reads, at (p, q), its entry q. -/
theorem rowBroadcast_at (v : FVec Ideal S1024 .f32) (p : Fin 64) (q : Fin 1024) :
    broadcastTo S64x1024 (shapeCast S1x1024 v shapeCasts_S1024_S1x1024) broadcasts_S1x1024_S64x1024 (ix2 p q) = v (ix1 q) :=
  (broadcastTo_1b_ab_apply _ broadcasts_S1x1024_S64x1024 p q).trans (shapeCast_a_1a_apply v shapeCasts_S1024_S1x1024 0 q)

/-- The bias cast to a column and broadcast along the 1024 tokens reads, at (p, q), its entry p. -/
theorem colBroadcast_at (p : Fin 64) (q : Fin 1024) :
    broadcastTo S64x1024 (shapeCast S64x1 b shapeCasts_S64_S64x1) broadcasts_S64x1_S64x1024 (ix2 p q) = b (ix1 p) :=
  (broadcastTo_a1_ab_apply _ broadcasts_S64x1_S64x1024 p q).trans (shapeCast_a_a1_apply b shapeCasts_S64_S64x1 p 0)

/-! ## The body's stages -/

/-- The biased scores of the block: experts by tokens. -/
def scores : FVec Ideal S64x1024 .f32 :=
  addf (matmul (F := Ideal) (φ₁ := .f32) (φ₂ := .f32) dot_S64x2048_S1024x2048_S64x1024_1_1_0_0_n_n none W x0 (constant S64x1024 .f32 0x00000000#32))
    (broadcastTo S64x1024 (shapeCast S64x1 b shapeCasts_S64_S64x1) broadcasts_S64x1_S64x1024)

/-- Each token's largest score. -/
def colMaxes : FVec Ideal S1024 .f32 :=
  multiReduction .maximumf [0] S1024 (scores W x0 b) 0xFF800000#32 reduces_S64x1024_S1024 (.inl rfl) rfl

/-- The exponentials of the scores' distances below their token's largest. -/
def exps : FVec Ideal S64x1024 .f32 :=
  exp (subf (scores W x0 b) (broadcastTo S64x1024 (shapeCast S1x1024 (colMaxes W x0 b) shapeCasts_S1024_S1x1024) broadcasts_S1x1024_S64x1024))

/-- Each token's total of exponentials. -/
def colSums : FVec Ideal S1024 .f32 :=
  multiReduction .add [0] S1024 (exps W x0 b) 0x00000000#32 reduces_S64x1024_S1024 (.inl rfl) rfl

/-- The stored value is the quotient of the exponentials by their token's total. -/
theorem pay_stages : k0_pay1 (F := Ideal) W x0 b
    = divf (exps W x0 b) (broadcastTo S64x1024 (shapeCast S1x1024 (colSums W x0 b) shapeCasts_S1024_S1x1024) broadcasts_S1x1024_S64x1024) := rfl

theorem scores_at (p : Fin 64) (q : Fin 1024) :
    scores W x0 b (ix2 p q) = logit (fun k => x0 (ix2 q k)) W b p := by
  unfold scores logit
  show matmul (F := Ideal) (φ₁ := .f32) (φ₂ := .f32) dot_S64x2048_S1024x2048_S64x1024_1_1_0_0_n_n none W x0 (constant S64x1024 .f32 0x00000000#32) (ix2 p q)
      + broadcastTo S64x1024 (shapeCast S64x1 b shapeCasts_S64_S64x1) broadcasts_S64x1_S64x1024 (ix2 p q) = _
  rw [matmul_at W x0 p q, colBroadcast_at b p q]

theorem colMaxes_at (q : Fin 1024) : colMaxes W x0 b (ix1 q) = rowMax (fun k => x0 (ix2 q k)) W b := by
  unfold colMaxes rowMax
  refine (colMax_at (scores W x0 b) _ _ q).trans ?_
  exact congrArg (fun f : Fin 64 → EReal => (Finset.univ : Finset (Fin 64)).fold max negInf f) (funext fun p => scores_at W x0 b p q)

theorem exps_at (p : Fin 64) (q : Fin 1024) :
    exps W x0 b (ix2 p q) = expo (fun k => x0 (ix2 q k)) W b p := by
  unfold exps expo
  show Ideal.exp (scores W x0 b (ix2 p q)
      - broadcastTo S64x1024 (shapeCast S1x1024 (colMaxes W x0 b) shapeCasts_S1024_S1x1024) broadcasts_S1x1024_S64x1024 (ix2 p q)) = _
  rw [rowBroadcast_at (colMaxes W x0 b) p q, scores_at W x0 b p q, colMaxes_at W x0 b q]

theorem colSums_at (q : Fin 1024) : colSums W x0 b (ix1 q) = ∑ p : Fin 64, expo (fun k => x0 (ix2 q k)) W b p := by
  unfold colSums
  refine (colSum_at (exps W x0 b) _ _ q).trans ?_
  exact Finset.sum_congr rfl fun p _ => exps_at W x0 b p q

/-- THE BODY'S STORED VALUE at (expert p, token q of the block) is the softmax weight of p for that token's row. -/
theorem pay_at (p : Fin 64) (q : Fin 1024) :
    k0_pay1 (F := Ideal) W x0 b (ix2 p q) = gate (fun k => x0 (ix2 q k)) W b p := by
  rw [pay_stages]
  unfold gate
  show Ideal.div (exps W x0 b (ix2 p q))
      (broadcastTo S64x1024 (shapeCast S1x1024 (colSums W x0 b) shapeCasts_S1024_S1x1024) broadcasts_S1x1024_S64x1024 (ix2 p q)) = _
  rw [rowBroadcast_at (colSums W x0 b) p q, exps_at W x0 b p q, colSums_at W x0 b q]

end Cert.KernelIdeal.KerValue

end
-- ==== Proof.KerArray.lean ====
/-
  From the blocks to the arrays: what the kernel program leaves in its result.

  The grid has 8 points. Point t stages token rows 1024 t .. 1024 t + 1023 (all 2048 features), the whole weight
  matrix and the whole bias, and writes back columns 1024 t .. 1024 t + 1023 of the 64-by-8192 intermediate. So what
  point t writes is block t of ONE function of the argument arrays, the gate laid out experts by tokens; the 8 blocks
  tile the intermediate (column j lies in the block of point j / 1024), which therefore ends holding that function.
  The program's last operation transposes the intermediate into the result, tokens by experts.
-/
import proofs.«172098_g30124900614622_retrytranche2_1091_25_alg».proof.Proof.Gen.KernelIdeal.Frame
import proofs.«172098_g30124900614622_retrytranche2_1091_25_alg».proof.Proof.KerGate
import Idealize.ShloMosaic.Lib.Pipeline.Value
import Idealize.ShloMosaic.Lib.StableHlo.Run
import Idealize.ShloMosaic.Lib.Tactic

noncomputable section

open scoped BigOperators

namespace Cert.KernelIdeal.KerValue

open Cert.KernelIdeal Cert.KernelIdeal.Gen Cert.GateSoftmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays as the region finds them. -/
abbrev xarr (c : Dev nD) : FVec Ideal S8192x2048 .f32 := V m c main_arg0
abbrev warr (c : Dev nD) : FVec Ideal S64x2048 .f32 := V m c main_arg1
abbrev barr (c : Dev nD) : FVec Ideal S64 .f32 := V m c main_arg2

theorem hz2 : (![0, 0] : Fin 2 → Nat) = fun _ => 0 := funext fun a => by fin_cases a <;> rfl
theorem hz1 : (![0] : Fin 1 → Nat) = fun _ => 0 := funext fun a => by fin_cases a <;> rfl

/-- The printed index maps over the 8 points: the token window moves down the rows with the point, the weights and
    the bias stay, the output window moves along the columns with the point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = t.val :=
  (by decide +kernel : ∀ t : Fin grid0.N, _)

/-! ## The input blocks -/

/-- The token window's block at point t is rows 1024 t .. 1024 t + 1023 of the token matrix. -/
theorem iblk0_apply (c : Dev nD) (t : Fin cfg0.N) (y : S1024x2048.Idx) (i : S8192x2048.Idx)
    (h0 : (i 0).val = 1024 * t.val + (y 0).val) (h1 : (i 1).val = (y 1).val) :
    (iblk m c 0 t : FVec Ideal S1024x2048 .f32) y = xarr m c i := by
  obtain ⟨e00, e01, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * (y 0).val = (i 0).val; rw [e00, h0]; omega
  | ⟨1, _⟩ => show win0_0.index t (1 : Fin 2) * 2048 + 1 * (y 1).val = (i 1).val; rw [e01, h1]; omega

/-- The weight window's block is the whole weight matrix at every point. -/
theorem iblk1_eq (c : Dev nD) (t : Fin cfg0.N) : (iblk m c 1 t : FVec Ideal S64x2048 .f32) = warr m c := by
  obtain ⟨-, -, e10, e11, -⟩ := idx_facts t
  funext y
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e10]; omega
  | ⟨1, _⟩ => show win0_1.index t (1 : Fin 2) * 2048 + 1 * (y 1).val = (y 1).val; rw [e11]; omega

/-- The bias window's block is the whole bias at every point. -/
theorem iblk2_eq (c : Dev nD) (t : Fin cfg0.N) : (iblk m c 2 t : FVec Ideal S64 .f32) = barr m c := by
  obtain ⟨-, -, -, -, e20, -⟩ := idx_facts t
  funext y
  unfold iblk
  rw [View.read_apply]
  show V m c main_arg2 _ = V m c main_arg2 _
  congr 1
  funext a
  apply Fin.ext
  match a with
  | ⟨0, _⟩ => show win0_2.index t (0 : Fin 1) * 64 + 1 * (y 0).val = (y 0).val; rw [e20]; omega

/-! ## What a point writes back -/

/-- The body's stored value at an index y of the block, when the token block's row `y 1` is row `j` of a token
    matrix `X`: expert `y 0`'s weight for that row. -/
theorem pay_blk (X : FVec Ideal S8192x2048 .f32) (Wv : FVec Ideal S64x2048 .f32) (bv : FVec Ideal S64 .f32)
    (x0 : FVec Ideal S1024x2048 .f32) (j : Fin 8192) (y : S64x1024.Idx)
    (hx : ∀ k : Fin 2048, x0 (ix2 (y 1) k) = X (ix2 j k)) :
    k0_pay1 (F := Ideal) Wv x0 bv y = gate (fun k => X (ix2 j k)) Wv bv (y 0) := by
  obtain ⟨p, q, rfl⟩ : ∃ (p : Fin 64) (q : Fin 1024), y = ix2 p q := ⟨y 0, y 1, eq_ix2 y⟩
  rw [pay_at]
  exact congrArg (fun r : Fin 2048 → EReal => gate r Wv bv p) (funext hx)

/-- WHAT POINT t WRITES BACK is block t of the gate laid out experts by tokens. -/
theorem flushed_eq (c : Dev nD) (t : Fin cfg0.N) :
    (dats m 0 c).flushed 3 t = ((cfg0.win 3).blk t).view.read (Elt Ideal) (gateT (xarr m c) (warr m c) (barr m c)) := by
  show (cfg0.win 3).cut (grid0.coords t) ((dats m 0 c).after 3 t) = _
  rw [after0_3]
  unfold out0_3
  rw [View.canon_unit_zero hz2]
  simp only [View.ld_unit_zero (S := S64x2048) hz2, View.ld_unit_zero (S := S1024x2048) hz2, View.ld_unit_zero (S := S64) hz1]
  rw [iblk1_eq m c t, iblk2_eq m c t]
  obtain ⟨-, -, -, -, -, e30, e31⟩ := idx_facts t
  have ht : t.val < 8 := by have h1 := t.isLt; have h2 : cfg0.N = 8 := N_0; omega
  funext y
  show k0_pay1 (F := Ideal) (warr m c) (iblk m c 0 t) (barr m c) y
      = gateT (xarr m c) (warr m c) (barr m c) (((cfg0.win 3).blk t).view.emb y)
  have hy0 : (y 0).val < 64 := (y 0).isLt
  have hy1 : (y 1).val < 1024 := (y 1).isLt
  have e0 : ((((cfg0.win 3).blk t).view.emb y) 0).val = (y 0).val := by
    show win0_3.index t (0 : Fin 2) * 64 + 1 * (y 0).val = (y 0).val
    rw [e30]; omega
  have e1 : ((((cfg0.win 3).blk t).view.emb y) 1).val = 1024 * t.val + (y 1).val := by
    show win0_3.index t (1 : Fin 2) * 1024 + 1 * (y 1).val = 1024 * t.val + (y 1).val
    rw [e31]; omega
  refine (pay_blk (xarr m c) (warr m c) (barr m c) (iblk m c 0 t) ⟨1024 * t.val + (y 1).val, by omega⟩ y
    (fun k => iblk0_apply m c t (ix2 (y 1) k) (ix2 ⟨1024 * t.val + (y 1).val, by omega⟩ k) rfl rfl)).trans ?_
  exact (gateT_of (xarr m c) (warr m c) (barr m c) _ (y 0) ⟨1024 * t.val + (y 1).val, by omega⟩ e0 e1).symm

/-! ## The cover, and the intermediate after the run -/

/-- An index of the intermediate is in point t's block iff each coordinate is in the block's range on its axis. -/
theorem mem_blk (t : Fin cfg0.N) (i : S64x8192.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v0).slice (win0_3.rect t)).set ↔ _
  rw [View.set_slice_whole, Rect.mem_set_unit]
  exact Iff.rfl

/-- Every index of the intermediate lies in the block of the point its column falls to. -/
theorem cover (i : S64x8192.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  have hN : cfg0.N = 8 := N_0
  have hlt : (i 1).val / 1024 < cfg0.N := by rw [hN]; omega
  obtain ⟨-, -, -, -, -, e30, e31⟩ := idx_facts ⟨(i 1).val / 1024, hlt⟩
  refine ⟨⟨(i 1).val / 1024, hlt⟩, flush0_3 _, ?_⟩
  rw [mem_blk]
  intro a
  match a with
  | ⟨0, _⟩ =>
    show win0_3.index ⟨(i 1).val / 1024, hlt⟩ (0 : Fin 2) * 64 ≤ (i 0).val ∧ (i 0).val < win0_3.index ⟨(i 1).val / 1024, hlt⟩ (0 : Fin 2) * 64 + 64
    rw [e30]; omega
  | ⟨1, _⟩ =>
    show win0_3.index ⟨(i 1).val / 1024, hlt⟩ (1 : Fin 2) * 1024 ≤ (i 1).val ∧ (i 1).val < win0_3.index ⟨(i 1).val / 1024, hlt⟩ (1 : Fin 2) * 1024 + 1024
    rw [e31]
    show (i 1).val / 1024 * 1024 ≤ (i 1).val ∧ (i 1).val < (i 1).val / 1024 * 1024 + 1024
    omega

/-- THE INTERMEDIATE after the region is the gate laid out experts by tokens. -/
theorem final_v0 (c : Dev nD) : (dats m 0 c).arrAt 3 cfg0.N = gateT (xarr m c) (warr m c) (barr m c) :=
  (dats m 0 c).arrAt_eq_of_cover 3 (gateT (xarr m c) (warr m c) (barr m c)) (fun t _ => flushed_eq m c t) cover

/-! ## The transpose after the region, and the run -/

/-- The result buffer after the program's last operation: the intermediate, transposed. -/
theorem tail_eq (c : Dev nD) :
    Pipeline.afterTail₀ cfgs (dats m) 0 (V0 m) [hostOps1] c main_v1
      = gateN (xarr m c) (warr m c) (barr m c) := by
  unfold Pipeline.afterTail₀
  show StableHlo.after hostOps1 _ (Proc.devRef .tc main_v1) = _
  after_results
  refine Eq.trans ?_ (transpose_gateT (xarr m c) (warr m c) (barr m c) transposes_S64x8192_S8192x64_1_0)
  exact congrArg (fun z => transpose S8192x64 [1, 0] z transposes_S64x8192_S8192x64_1_0)
    ((Pipeline.withArrays_arr spec0 launch0.win.arr_inj c _ _ 3).trans (final_v0 m c))

/-- The result buffer is no window's array and is not scoped: the frame run states it through the lines after the region. -/
theorem main_v1_rest : main_v1 ∈ Pipeline.restRefs sig (cfgs 0).spec :=
  Pipeline.mem_restRefs_of main_v1 rfl (by decide)

/-- THE RUN, READ: the kernel program ends with its result at the gate of the argument arrays, tokens by experts,
    and the arguments unchanged. -/
theorem run : θ_run defs (onTc (τ := τ) (main (F := Ideal))) ⟨m, fun _ => 0, ρ⟩ fun r => ∀ c : Dev nD,
      r.2.mem ((c.tc : Thread nD τ).loc main_v1)
        = gateN (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 main_v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KerValue

end
-- ==== Proof.lean ====
/-
  A mixture-of-experts gate: softmax over 64 experts of `x · Wᵀ + b`, for 8192 tokens of 2048 features.

  The kernel computes the transposed product block by block (1024 tokens a grid point), takes the softmax down the
  experts of each token's column, and its program transposes the 64-by-8192 intermediate at the end; the reference
  computes `x · Wᵀ + b` whole and applies the softmax along each row. On the extended reals both results are, at
  (token j, expert p), `exp (s p - M) / Σ q, exp (s q - M)` where `s p = Σ k, W[p, k] · x[j, k] + b[p]` and `M` is the
  largest of the token's 64 scores: the two programs differ only in the order of the factors of each product
  (commutativity), in a second maximum with minus infinity on the reference's side (absorbed, since a maximum folded
  from minus infinity is at least minus infinity), and in the layout. No finiteness of the inputs is needed for the
  equality, so the precondition is never opened.

  Modules: `Softmax` states the function; `RefGate` reads the reference's operations at an index; `KerGate` reads the
  kernel body's stored value at an index; `KerArray` goes from the eight blocks to the intermediate array, through
  the final transpose, to the kernel program's run; `LibColumn` has two column-vector layout lemmas.
-/
import proofs.«172098_g30124900614622_retrytranche2_1091_25_alg».proof.Defs
import proofs.«172098_g30124900614622_retrytranche2_1091_25_alg».proof.Proof.Gen.Kernel
import proofs.«172098_g30124900614622_retrytranche2_1091_25_alg».proof.Proof.Gen.Kernel.Skeleton
import proofs.«172098_g30124900614622_retrytranche2_1091_25_alg».proof.Proof.Gen.Kernel.Launch
import proofs.«172098_g30124900614622_retrytranche2_1091_25_alg».proof.Proof.Gen.Kernel.Points
import proofs.«172098_g30124900614622_retrytranche2_1091_25_alg».proof.Proof.Gen.Kernel.Frame
import proofs.«172098_g30124900614622_retrytranche2_1091_25_alg».proof.Proof.Gen.KernelIdeal
import proofs.«172098_g30124900614622_retrytranche2_1091_25_alg».proof.Proof.Gen.KernelIdeal.Skeleton
import proofs.«172098_g30124900614622_retrytranche2_1091_25_alg».proof.Proof.Gen.KernelIdeal.Launch
import proofs.«172098_g30124900614622_retrytranche2_1091_25_alg».proof.Proof.Gen.KernelIdeal.Points
import proofs.«172098_g30124900614622_retrytranche2_1091_25_alg».proof.Proof.Gen.KernelIdeal.Frame
import proofs.«172098_g30124900614622_retrytranche2_1091_25_alg».proof.Proof.Gen.ReferenceIdeal
import proofs.«172098_g30124900614622_retrytranche2_1091_25_alg».proof.Proof.Gen.Pre_finite_inputs
import proofs.«172098_g30124900614622_retrytranche2_1091_25_alg».proof.Proof.Gen.ReferenceIdeal.Run
import proofs.«172098_g30124900614622_retrytranche2_1091_25_alg».proof.Proof.Gen.ReferenceIdeal.Read
import proofs.«172098_g30124900614622_retrytranche2_1091_25_alg».proof.Proof.RefGate
import proofs.«172098_g30124900614622_retrytranche2_1091_25_alg».proof.Proof.KerArray
import Idealize.ShloMosaic.Adequacy
import Idealize.ShloMosaic.Init

noncomputable section

namespace Cert.Proof

open Idealize.ShloMosaic Idealize.ShloMosaic.ValueIdx Idealize.SL.Sem Cert.GateSoftmax

/-- The reference's run ends with its result at the gate of its argument arrays, tokens by experts. -/
theorem ref_result (x : (⟨Cert.ReferenceIdeal.S8192x2048, .f32⟩ : BufTy).Contents (Elt Ideal))
    (W : (⟨Cert.ReferenceIdeal.S64x2048, .f32⟩ : BufTy).Contents (Elt Ideal))
    (b : (⟨Cert.ReferenceIdeal.S64, .f32⟩ : BufTy).Contents (Elt Ideal)) :
    Cert.ReferenceIdeal.Read.val_main_v15 (F := Ideal) x W b = gateN x W b := by
  funext i
  obtain ⟨j, p, rfl⟩ : ∃ (j : Fin 8192) (p : Fin 64), i = ix2 j p := ⟨i 0, i 1, eq_ix2 i⟩
  exact Cert.ReferenceIdeal.RefValue.gate_eq x W b j p

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the gate of the (agreeing) argument arrays in their result buffers. -/
theorem algebraic : Cert.algebraic_KernelIdeal_ReferenceIdeal := by
  intro m ρ m' ρ' _ hagree
  refine ⟨fun c => gateN (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KerValue.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v15_eq _ _ _)).trans ?_
  rw [ref_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
